-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_arg5 : FVec F S2048x2048 .f32) (main_arg6 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S8192x2048 .f32) (main_arg1 : FVec F S2048x2048 .f32) (main_arg2 : FVec F S2048x2048 .f32) (main_arg3 : FVec F S2048 .f32) (main_arg4 : FVec F S2048 .f32) (main_arg5 : FVec F S2048x2048 .f32) (main_arg6 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_v13 main_v16
-- ==== Kernel.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S256x2048 : Shape := ⟨2, ![256, 2048]⟩
abbrev S512x2048 : Shape := ⟨2, ![512, 2048]⟩

abbrev nBuf : Space → Nat
  | .hbm => 16
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S1x2048, .f32⟩
  | .hbm, ⟨14, _⟩ => ⟨S2048x2048, .bf16⟩
  | .hbm, ⟨15, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S512x2048, .f32⟩
  | .local _ .vmem, ⟨9, _⟩ => ⟨S512x2048, .f32⟩
  | .local _ .vmem, ⟨10, _⟩ => ⟨S2048x2048, .bf16⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S2048 : S_.BroadcastsInDim S2048 (![] : Fin 0 → Fin S2048.rank)
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  packedbf16_S256x2048_S256x2048_0_0 : (Rect.unit (s := S256x2048) ![0, 0] S256x2048.size inb_S256x2048_S256x2048_0_0).PackedRows (EltTy.packing .bf16)
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .f32 = 32 ∨ (Rect.block (s := S2048x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x2048.size a
  hwx0_2 : ∀ i : grid0.Coords, EltTy.bits .f32 = 32 ∨ (Rect.block (s := S2048x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .bf16 = 32 ∨ (Rect.block (s := S2048x2048) S256x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .f32 = 32 ∨ (Rect.block (s := S8192x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S8192x2048.size a
  hwx1_3 : ∀ i : grid1.Coords, EltTy.bits .f32 = 32 ∨ (Rect.block (s := S8192x2048) S512x2048.size (cc1_transform_3 i) (hinb1_3 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_arg1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048, .f32⟩
  | .hbm, ⟨15, _⟩ => ⟨S2048, .f32⟩
  | .hbm, ⟨16, _⟩ => ⟨S2048, .f32⟩
  | .hbm, ⟨17, _⟩ => ⟨S2048, .f32⟩
  | .hbm, ⟨18, _⟩ => ⟨S2048, .f32⟩
  | .hbm, ⟨19, _⟩ => ⟨S2048x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S_S2048 : S_.BroadcastsInDim S2048 (![] : Fin 0 → Fin S2048.rank)
  transposes_S2048x2048_S2048x2048_1_0 : S2048x2048.Transposes [1, 0] S2048x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.Payloads.lean ====
/-
  The two kernel bodies' stored values, read at one index.

  The first body stores, entry by entry of its 256-row block, the sampled weight
  `wm + exp (1/2 · wv) · ew` (then narrowed to bf16, which changes nothing over the extended reals).
  The second stores, at row `p` and column `q` of its 512-row block, the product of row `p` of the
  x-block with row `q` of the weight (both operands contract their second axis), summed over the
  2048 positions into a zero accumulator, plus the bias row at column `q`.
-/
import proofs.«161219_j70763881169036_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe

/-! ## The sampled weight -/

section Sample
variable {F : FTy → Type} [FloatOps F]

/-- The sampled weight as one function of the three whole arrays: `wm + exp (1/2 · wv) · ew`, entry by entry. -/
def sampleW (wm wv ew : Vec F S2048x2048 .f32) : FVec F S2048x2048 .bf16 :=
  truncf .bf16 (addf wm (mulf (exp (mulf (broadcast S2048x2048 (Scalar.ofBits .f32 0x3F000000#32)) wv)) ew)) bitsLt_bf16_f32

/-- The first body's stored value at an entry `j` of the block is the sampled weight at the array entry `i` the
    three loaded blocks hold there. -/
theorem sample_apply (x0 x1 x2 : Vec F S256x2048 .f32) (wm wv ew : Vec F S2048x2048 .f32) (j : S256x2048.Idx)
    (i : S2048x2048.Idx) (h0 : x0 j = wm i) (h1 : x1 j = wv i) (h2 : x2 j = ew i) :
    k0_pay1 x0 x1 x2 j = sampleW wm wv ew i := by
  show FloatOps.truncf .bf16 bitsLt_bf16_f32 (FloatOps.addf (x0 j) (FloatOps.mulf (FloatOps.exp (FloatOps.mulf (Scalar.ofBits .f32 0x3F000000#32) (x1 j))) (x2 j)))
    = FloatOps.truncf .bf16 bitsLt_bf16_f32 (FloatOps.addf (wm i) (FloatOps.mulf (FloatOps.exp (FloatOps.mulf (Scalar.ofBits .f32 0x3F000000#32) (wv i))) (ew i)))
  rw [h0, h1, h2]

end Sample

/-! ## The product with the bias row -/

/-- Row `j 0` of the x-block at position `k`. -/
abbrev xAt (j : S512x2048.Idx) (k : Fin 2048) : S512x2048.Idx := fun a => match a with
  | ⟨0, _⟩ => ⟨(j 0).val, (j 0).isLt⟩
  | ⟨1, _⟩ => ⟨k.val, k.isLt⟩
/-- Row `j 1` of the weight at position `k`: the weight is read untransposed, its rows indexed by the output column. -/
abbrev wAt (j : S512x2048.Idx) (k : Fin 2048) : S2048x2048.Idx := fun a => match a with
  | ⟨0, _⟩ => ⟨(j 1).val, (j 1).isLt⟩
  | ⟨1, _⟩ => ⟨k.val, k.isLt⟩
/-- The bias row at column `j 1`. -/
abbrev bAt (j : S512x2048.Idx) : S1x2048.Idx := fun a => match a with
  | ⟨0, _⟩ => ⟨0, Nat.one_pos⟩
  | ⟨1, _⟩ => ⟨(j 1).val, (j 1).isLt⟩

/-- The left operand's index keeps the output's row on its free axis, -/
theorem lhs_0 (i : S512x2048.Idx) (q : dot_S512x2048_S2048x2048_S512x2048_1_1_0_0_n_n.contr.Idx) :
    (dot_S512x2048_S2048x2048_S512x2048_1_1_0_0_n_n.lhsIdx i q 0).val = (i 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
/-- and carries the contraction position on its second axis. -/
theorem lhs_1 (i : S512x2048.Idx) (q : dot_S512x2048_S2048x2048_S512x2048_1_1_0_0_n_n.contr.Idx) :
    (dot_S512x2048_S2048x2048_S512x2048_1_1_0_0_n_n.lhsIdx i q 1).val = (q ⟨0, by decide⟩).val :=
  dot_S512x2048_S2048x2048_S512x2048_1_1_0_0_n_n.lhsIdx_val_of_single rfl i q
/-- The right operand's free axis is its FIRST, and it carries the output's column, -/
theorem rhs_0 (i : S512x2048.Idx) (q : dot_S512x2048_S2048x2048_S512x2048_1_1_0_0_n_n.contr.Idx) :
    (dot_S512x2048_S2048x2048_S512x2048_1_1_0_0_n_n.rhsIdx i q 0).val = (i 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
/-- while its second axis carries the contraction position. -/
theorem rhs_1 (i : S512x2048.Idx) (q : dot_S512x2048_S2048x2048_S512x2048_1_1_0_0_n_n.contr.Idx) :
    (dot_S512x2048_S2048x2048_S512x2048_1_1_0_0_n_n.rhsIdx i q 1).val = (q ⟨0, by decide⟩).val :=
  dot_S512x2048_S2048x2048_S512x2048_1_1_0_0_n_n.rhsIdx_val_of_single rfl i q

/-- The second body's stored value at `j`, over the extended reals: `∑ k, x (j 0, k) · w (j 1, k)` plus the bias at column
    `j 1`. The narrowing of `x` to bf16 and the two shape casts to the same shape are identities. -/
theorem product_apply (x : Vec Ideal S512x2048 .f32) (w : Vec Ideal S2048x2048 .bf16) (b : Vec Ideal S1x2048 .f32)
    (j : S512x2048.Idx) :
    k1_pay1 (F := Ideal) x w b j = (∑ k : Fin 2048, x (xAt j k) * w (wAt j k)) + b (bAt j) := by
  unfold k1_pay1
  show FloatOps.addf (F := Ideal) (φ := .f32) (matmul (F := Ideal) dot_S512x2048_S2048x2048_S512x2048_1_1_0_0_n_n none (truncf (F := Ideal) .bf16 (x : FVec Ideal S512x2048 .f32) bitsLt_bf16_f32) (shapeCast S2048x2048 (w : FVec Ideal S2048x2048 .bf16) shapeCasts_S2048x2048_S2048x2048) (constant (F := Ideal) S512x2048 .f32 0x00000000#32) j)
      (broadcastTo S512x2048 (shapeCast S1x2048 (b : FVec Ideal S1x2048 .f32) shapeCasts_S1x2048_S1x2048) broadcasts_S1x2048_S512x2048 j) = _
  rw [shapeCast_self, shapeCast_self,
    broadcastTo_apply b broadcasts_S1x2048_S512x2048 j (bAt j) (fun a => match a with
      | ⟨0, _⟩ => by show 0 = if (1 : Nat) = 1 then 0 else (j 0).val; rw [if_pos rfl]
      | ⟨1, _⟩ => by show (j 1).val = if (2048 : Nat) = 1 then 0 else (j 1).val; rw [if_neg (by decide)])]
  simp only [matmul]
  rw [Ideal.matmul_constant_zero_apply, ← Equiv.sum_comp (ValueIdx.contrEquiv1 dot_S512x2048_S2048x2048_S512x2048_1_1_0_0_n_n 2048 rfl rfl).symm]
  refine congrArg (· + b (bAt j)) (Finset.sum_congr rfl fun k _ => ?_)
  have hk := ValueIdx.contrEquiv1_symm_val dot_S512x2048_S2048x2048_S512x2048_1_1_0_0_n_n 2048 rfl rfl k
  have el : dot_S512x2048_S2048x2048_S512x2048_1_1_0_0_n_n.lhsIdx j ((ValueIdx.contrEquiv1 dot_S512x2048_S2048x2048_S512x2048_1_1_0_0_n_n 2048 rfl rfl).symm k) = xAt j k := funext fun a => Fin.ext (by
    match a with
    | ⟨0, _⟩ => exact lhs_0 _ _
    | ⟨1, _⟩ => exact (lhs_1 _ _).trans hk)
  have er : dot_S512x2048_S2048x2048_S512x2048_1_1_0_0_n_n.rhsIdx j ((ValueIdx.contrEquiv1 dot_S512x2048_S2048x2048_S512x2048_1_1_0_0_n_n 2048 rfl rfl).symm k) = wAt j k := funext fun a => Fin.ext (by
    match a with
    | ⟨0, _⟩ => exact rhs_0 _ _
    | ⟨1, _⟩ => exact (rhs_1 _ _).trans hk)
  rw [el, er]
  rfl

end Cert.KernelIdeal.Hand

end
-- ==== Proof.WeightRegion.lean ====
/-
  The first pallas_call: the weight array it leaves.

  Eight grid points, each loading rows `256 t … 256 t + 255` of the three argument arrays (all four windows move
  with the point: block index `(t, 0)`) and writing back the sampled weight of those rows. What point `t` writes back
  is therefore block `t` of ONE whole-array function, `sampleW` of the three arrays as the region finds them, and the
  eight blocks tile the 2048 rows: the array ends holding `sampleW`.
-/
import proofs.«161219_j70763881169036_1_alg».proof.Proof.Gen.KernelIdeal.Frame
import proofs.«161219_j70763881169036_1_alg».proof.Proof.Payloads
import Idealize.ShloMosaic.Lib.Pipeline.Value
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero_off : (![0, 0] : Fin 2 → Nat) = fun _ => 0 := funext fun a => by fin_cases a <;> rfl

/-- Every window of the first call sits at block `(t, 0)` at point `t`. -/
theorem index0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the sampled weight of the three arrays. -/
theorem flushed0 (c : Dev nD) (t : Fin cfg0.N) :
    (dat0 V c).flushed 3 t = ((cfg0.win 3).blk t).view.read (Elt F) (sampleW (V c main_arg1) (V c main_arg2) (V c main_arg5)) := by
  show (cfg0.win 3).cut (grid0.coords t) ((dat0 V c).after 3 t) = _
  rw [after0_3]
  unfold out0_3
  rw [View.canon_unit_zero zero_off]
  simp only [View.ld_unit_zero (S := S256x2048) zero_off]
  obtain ⟨e00, e01, e10, e11, e20, e21, e30, e31⟩ := index0 t
  funext j
  show k0_pay1 (iblk0 V c 0 t) (iblk0 V c 1 t) (iblk0 V c 2 t) j
    = sampleW (V c main_arg1) (V c main_arg2) (V c main_arg5) (((cfg0.win 3).blk t).view.emb j)
  -- each input block holds, at `j`, its array's entry at the output block's position of `j`: the four block indices agree
  have h0 : ((cfg0.win 0).blk t).view.emb j = ((cfg0.win 3).blk t).view.emb j := by
    funext a; apply Fin.ext
    match a with
    | ⟨0, _⟩ => show win0_0.index t (0 : Fin 2) * 256 + 1 * (j 0).val = win0_3.index t (0 : Fin 2) * 256 + 1 * (j 0).val; rw [e00, e30]
    | ⟨1, _⟩ => show win0_0.index t (1 : Fin 2) * 2048 + 1 * (j 1).val = win0_3.index t (1 : Fin 2) * 2048 + 1 * (j 1).val; rw [e01, e31]
  have h1 : ((cfg0.win 1).blk t).view.emb j = ((cfg0.win 3).blk t).view.emb j := by
    funext a; apply Fin.ext
    match a with
    | ⟨0, _⟩ => show win0_1.index t (0 : Fin 2) * 256 + 1 * (j 0).val = win0_3.index t (0 : Fin 2) * 256 + 1 * (j 0).val; rw [e10, e30]
    | ⟨1, _⟩ => show win0_1.index t (1 : Fin 2) * 2048 + 1 * (j 1).val = win0_3.index t (1 : Fin 2) * 2048 + 1 * (j 1).val; rw [e11, e31]
  have h2 : ((cfg0.win 2).blk t).view.emb j = ((cfg0.win 3).blk t).view.emb j := by
    funext a; apply Fin.ext
    match a with
    | ⟨0, _⟩ => show win0_2.index t (0 : Fin 2) * 256 + 1 * (j 0).val = win0_3.index t (0 : Fin 2) * 256 + 1 * (j 0).val; rw [e20, e30]
    | ⟨1, _⟩ => show win0_2.index t (1 : Fin 2) * 2048 + 1 * (j 1).val = win0_3.index t (1 : Fin 2) * 2048 + 1 * (j 1).val; rw [e21, e31]
  refine sample_apply (iblk0 V c 0 t) (iblk0 V c 1 t) (iblk0 V c 2 t) (V c main_arg1) (V c main_arg2) (V c main_arg5) j _ ?_ ?_ ?_
  · show V c main_arg1 (((cfg0.win 0).blk t).view.emb j) = V c main_arg1 (((cfg0.win 3).blk t).view.emb j)
    rw [h0]
  · show V c main_arg2 (((cfg0.win 1).blk t).view.emb j) = V c main_arg2 (((cfg0.win 3).blk t).view.emb j)
    rw [h1]
  · show V c main_arg5 (((cfg0.win 2).blk t).view.emb j) = V c main_arg5 (((cfg0.win 3).blk t).view.emb j)
    rw [h2]

/-- An index of the weight array lies in point `t`'s block iff each coordinate lies in the block's range on its axis. -/
theorem mem_block0 (t : Fin cfg0.N) (i : S2048x2048.Idx) :
    i ∈ ((cfg0.win 3).blk t).view.set ↔ ∀ a : Fin 2, win0_3.index t a * S256x2048.size a ≤ (i a).val ∧ (i a).val < win0_3.index t a * S256x2048.size a + S256x2048.size a := by
  show i ∈ ((View.whole main_v6).slice (win0_3.rect t)).set ↔ _
  rw [View.set_slice_whole, Rect.mem_set_unit]
  exact Iff.rfl

/-- Row `r` lies in the block of point `r / 256`: the eight blocks tile the array. -/
theorem cover0 (i : S2048x2048.Idx) :
    ∃ t : Fin cfg0.N, (cfg0.win 3).flush t = true ∧ i ∈ ((cfg0.win 3).blk t).view.set := by
  have hi0 : (i 0).val < 2048 := (i 0).isLt
  have hi1 : (i 1).val < 2048 := (i 1).isLt
  have hN : cfg0.N = 8 := N_0
  refine ⟨⟨(i 0).val / 256, by omega⟩, flush0_3 _, ?_⟩
  obtain ⟨-, -, -, -, -, -, e30, e31⟩ := index0 ⟨(i 0).val / 256, by omega⟩
  rw [mem_block0]
  intro a
  match a with
  | ⟨0, _⟩ =>
    show win0_3.index _ (0 : Fin 2) * 256 ≤ (i 0).val ∧ (i 0).val < win0_3.index _ (0 : Fin 2) * 256 + 256
    rw [e30]; show (i 0).val / 256 * 256 ≤ (i 0).val ∧ (i 0).val < (i 0).val / 256 * 256 + 256; omega
  | ⟨1, _⟩ =>
    show win0_3.index _ (1 : Fin 2) * 2048 ≤ (i 1).val ∧ (i 1).val < win0_3.index _ (1 : Fin 2) * 2048 + 2048
    rw [e31]; omega

/-- The weight array after the first call: the sampled weight of the three arrays as the region finds them. -/
theorem weight_final (c : Dev nD) :
    (dat0 V c).arrAt 3 cfg0.N = sampleW (V c main_arg1) (V c main_arg2) (V c main_arg5) :=
  (dat0 V c).arrAt_eq_of_cover 3 _ (fun t _ => flushed0 V c t) cover0

end Cert.KernelIdeal.Hand

end
-- ==== Proof.Spec.lean ====
/-
  The function both programs compute, over the extended reals.

  With `W (q, k) = wm (q, k) + exp (1/2 · wv (q, k)) · ew (q, k)` the sampled weight and
  `β q = bm q + exp (1/2 · bv q) · eb q` the sampled bias, the result at row `p` and column `q` is
  `(∑ k < 2048, x (p, k) · W (q, k)) + β q`: the rows of `x` against the ROWS of `W` (a product with the
  transposed weight), plus the bias of the column. The constant `1/2` is the one f32 word both programs carry; it
  is never evaluated.
-/
import Idealize.ShloMosaic.PureOps.Ideal
import Idealize.ShloMosaic.Lib.ValueIdx

noncomputable section

namespace Cert.Spec

open Idealize.ShloMosaic

abbrev Sx : Shape := ⟨2, ![8192, 2048]⟩
abbrev Sw : Shape := ⟨2, ![2048, 2048]⟩
abbrev Sb : Shape := ⟨1, ![2048]⟩

/-- Entry `(p, k)` of `x`, for the result index `i = (p, q)`. -/
abbrev xIdx (i : Sx.Idx) (k : Fin 2048) : Sx.Idx := fun a => match a with
  | ⟨0, _⟩ => ⟨(i 0).val, (i 0).isLt⟩
  | ⟨1, _⟩ => ⟨k.val, k.isLt⟩
/-- Entry `(q, k)` of the weight, for the result index `i = (p, q)`. -/
abbrev wIdx (i : Sx.Idx) (k : Fin 2048) : Sw.Idx := fun a => match a with
  | ⟨0, _⟩ => ⟨(i 1).val, (i 1).isLt⟩
  | ⟨1, _⟩ => ⟨k.val, k.isLt⟩
/-- Entry `q` of the bias, for the result index `i = (p, q)`. -/
abbrev bIdx (i : Sx.Idx) : Sb.Idx := fun a => match a with
  | ⟨0, _⟩ => ⟨(i 1).val, (i 1).isLt⟩

/-- The one constant: the f32 word of `1/2`. -/
abbrev half : EReal := Ideal.ofBits .f32 0x3F000000#32

/-- The sampled weight at an entry. -/
def weight (wm wv ew : Sw.Idx → EReal) (j : Sw.Idx) : EReal := wm j + Ideal.exp (half * wv j) * ew j
/-- The sampled bias at an entry. -/
def bias (bm bv eb : Sb.Idx → EReal) (j : Sb.Idx) : EReal := bm j + Ideal.exp (half * bv j) * eb j

/-- The result: `x` against the transposed sampled weight, plus the sampled bias along the rows. -/
def result (x : Sx.Idx → EReal) (wm wv : Sw.Idx → EReal) (bm bv : Sb.Idx → EReal) (ew : Sw.Idx → EReal) (eb : Sb.Idx → EReal) :
    Sx.Idx → EReal :=
  fun i => (∑ k : Fin 2048, x (xIdx i k) * weight wm wv ew (wIdx i k)) + bias bm bv eb (bIdx i)

end Cert.Spec

end
-- ==== Proof.ProductRegion.lean ====
/-
  The second pallas_call: the result array it leaves, over the extended reals.

  Sixteen grid points. Point `t` loads rows `512 t … 512 t + 511` of `x`, the WHOLE weight array and the whole
  bias row (their block index stays `(0, 0)`), and writes back rows `512 t …` of the result: at row `p`, column `q` of
  the block, `∑ k, x (512 t + p, k) · w (q, k)` plus the bias row at `q`. That is block `t` of one whole-array
  function of the three arrays as the region finds them (`rowsProduct`), and the sixteen blocks tile the 8192 rows.
-/
import proofs.«161219_j70763881169036_1_alg».proof.Proof.Gen.KernelIdeal.Frame
import proofs.«161219_j70763881169036_1_alg».proof.Proof.Payloads
import proofs.«161219_j70763881169036_1_alg».proof.Proof.Spec
import Idealize.ShloMosaic.Lib.Pipeline.Value
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem zero_off1 : (![0, 0] : Fin 2 → Nat) = fun _ => 0 := funext fun a => by fin_cases a <;> rfl

/-- The bias row's entry for the result index `i = (p, q)`: `(0, q)`. -/
abbrev rowIdx (i : S8192x2048.Idx) : S1x2048.Idx := fun a => match a with
  | ⟨0, _⟩ => ⟨0, Nat.one_pos⟩
  | ⟨1, _⟩ => ⟨(i 1).val, (i 1).isLt⟩

/-- The result as one function of the three arrays the region reads: rows of `x` against rows of `w`, plus the bias row. -/
def rowsProduct (x : Vec Ideal S8192x2048 .f32) (w : Vec Ideal S2048x2048 .bf16) (b : Vec Ideal S1x2048 .f32) :
    Vec Ideal S8192x2048 .f32 :=
  fun i => (∑ k : Fin 2048, x (Cert.Spec.xIdx i k) * w (Cert.Spec.wIdx i k)) + b (rowIdx i)

/-- The three arrays the region reads, as it finds them, each at its literal type. -/
abbrev xArr (c : Dev nD) : Vec Ideal S8192x2048 .f32 := V c main_arg0
abbrev wArr (c : Dev nD) : Vec Ideal S2048x2048 .bf16 := V c main_v6
abbrev bArr (c : Dev nD) : Vec Ideal S1x2048 .f32 := V c main_v5

/-- The x and result windows sit at block `(t, 0)` at point `t`; the weight and bias windows stay at `(0, 0)`. -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `rowsProduct` of the three arrays. -/
theorem flushed1 (c : Dev nD) (t : Fin cfg1.N) :
    (dat1 V c).flushed 3 t = ((cfg1.win 3).blk t).view.read (Elt Ideal) (rowsProduct (xArr V c) (wArr V c) (bArr V c)) := by
  show (cfg1.win 3).cut (grid1.coords t) ((dat1 V c).after 3 t) = _
  rw [after1_3]
  unfold out1_3
  rw [View.canon_unit_zero zero_off1]
  simp only [View.ld_unit_zero (S := S512x2048) zero_off1, View.ld_unit_zero (S := S2048x2048) zero_off1, View.ld_unit_zero (S := S1x2048) zero_off1]
  obtain ⟨e00, e01, e10, e11, e20, e21, e30, e31⟩ := index1 t
  funext j
  show k1_pay1 (iblk1 V c 0 t) (iblk1 V c 1 t) (iblk1 V c 2 t) j
    = rowsProduct (xArr V c) (wArr V c) (bArr V c) (((cfg1.win 3).blk t).view.emb j)
  refine (product_apply (iblk1 V c 0 t) (iblk1 V c 1 t) (iblk1 V c 2 t) j).trans ?_
  show (∑ k : Fin 2048, xArr V c (((cfg1.win 0).blk t).view.emb (xAt j k)) * wArr V c (((cfg1.win 1).blk t).view.emb (wAt j k)))
        + bArr V c (((cfg1.win 2).blk t).view.emb (bAt j))
    = (∑ k : Fin 2048, xArr V c (Cert.Spec.xIdx (((cfg1.win 3).blk t).view.emb j) k) * wArr V c (Cert.Spec.wIdx (((cfg1.win 3).blk t).view.emb j) k))
        + bArr V c (rowIdx (((cfg1.win 3).blk t).view.emb j))
  -- the x-block's entry (p, k) is x's entry (512 t + p, k): the x and result windows share their block index
  have hx : ∀ k : Fin 2048, ((cfg1.win 0).blk t).view.emb (xAt j k) = Cert.Spec.xIdx (((cfg1.win 3).blk t).view.emb j) k := fun k => by
    funext a; apply Fin.ext
    match a with
    | ⟨0, _⟩ => show win1_0.index t (0 : Fin 2) * 512 + 1 * (j 0).val = win1_3.index t (0 : Fin 2) * 512 + 1 * (j 0).val; rw [e00, e30]
    | ⟨1, _⟩ => show win1_0.index t (1 : Fin 2) * 2048 + 1 * k.val = k.val; rw [e01]; omega
  -- the weight block is the whole weight array: its entry (q, k) is the array's
  have hw : ∀ k : Fin 2048, ((cfg1.win 1).blk t).view.emb (wAt j k) = Cert.Spec.wIdx (((cfg1.win 3).blk t).view.emb j) k := fun k => by
    funext a; apply Fin.ext
    match a with
    | ⟨0, _⟩ => show win1_1.index t (0 : Fin 2) * 2048 + 1 * (j 1).val = win1_3.index t (1 : Fin 2) * 2048 + 1 * (j 1).val; rw [e10, e31]
    | ⟨1, _⟩ => show win1_1.index t (1 : Fin 2) * 2048 + 1 * k.val = k.val; rw [e11]; omega
  -- the bias block is the whole bias row
  have hb : ((cfg1.win 2).blk t).view.emb (bAt j) = rowIdx (((cfg1.win 3).blk t).view.emb j) := by
    funext a; apply Fin.ext
    match a with
    | ⟨0, _⟩ => show win1_2.index t (0 : Fin 2) * 1 + 1 * 0 = 0; rw [e20]
    | ⟨1, _⟩ => show win1_2.index t (1 : Fin 2) * 2048 + 1 * (j 1).val = win1_3.index t (1 : Fin 2) * 2048 + 1 * (j 1).val; rw [e21, e31]
  rw [hb]
  refine congrArg (· + bArr V c (rowIdx (((cfg1.win 3).blk t).view.emb j))) (Finset.sum_congr rfl fun k _ => ?_)
  rw [hx k, hw k]

/-- An index of the result array lies in point `t`'s block iff each coordinate lies in the block's range on its axis. -/
theorem mem_block1 (t : Fin cfg1.N) (i : S8192x2048.Idx) :
    i ∈ ((cfg1.win 3).blk t).view.set ↔ ∀ a : Fin 2, win1_3.index t a * S512x2048.size a ≤ (i a).val ∧ (i a).val < win1_3.index t a * S512x2048.size a + S512x2048.size a := by
  show i ∈ ((View.whole main_v7).slice (win1_3.rect t)).set ↔ _
  rw [View.set_slice_whole, Rect.mem_set_unit]
  exact Iff.rfl

/-- Row `r` lies in the block of point `r / 512`: the sixteen blocks tile the array. -/
theorem cover1 (i : S8192x2048.Idx) :
    ∃ t : Fin cfg1.N, (cfg1.win 3).flush t = true ∧ i ∈ ((cfg1.win 3).blk t).view.set := by
  have hi0 : (i 0).val < 8192 := (i 0).isLt
  have hi1 : (i 1).val < 2048 := (i 1).isLt
  have hN : cfg1.N = 16 := N_1
  refine ⟨⟨(i 0).val / 512, by omega⟩, flush1_3 _, ?_⟩
  obtain ⟨-, -, -, -, -, -, e30, e31⟩ := index1 ⟨(i 0).val / 512, by omega⟩
  rw [mem_block1]
  intro a
  match a with
  | ⟨0, _⟩ =>
    show win1_3.index _ (0 : Fin 2) * 512 ≤ (i 0).val ∧ (i 0).val < win1_3.index _ (0 : Fin 2) * 512 + 512
    rw [e30]; show (i 0).val / 512 * 512 ≤ (i 0).val ∧ (i 0).val < (i 0).val / 512 * 512 + 512; omega
  | ⟨1, _⟩ =>
    show win1_3.index _ (1 : Fin 2) * 2048 ≤ (i 1).val ∧ (i 1).val < win1_3.index _ (1 : Fin 2) * 2048 + 2048
    rw [e31]; omega

/-- The result array after the second call: `rowsProduct` of the three arrays as the region finds them. -/
theorem product_final (c : Dev nD) :
    (dat1 V c).arrAt 3 cfg1.N = rowsProduct (xArr V c) (wArr V c) (bArr V c) :=
  (dat1 V c).arrAt_eq_of_cover 3 _ (fun t _ => flushed1 V c t) cover1

end Cert.KernelIdeal.Hand

end
-- ==== Proof.KernelValue.lean ====
/-
  What the kernel's program leaves in its result buffer, as the specification's function of the arguments.

  @main is a host stretch (the sampled bias `bm + exp (1/2 · bv) · eb`, reshaped to one row), then the two pallas_calls.
  Folding the segments from the launch memory: the first call finds the three weight arguments as launched and leaves
  the sampled weight; the second finds `x` as launched, that weight, and the bias row, and leaves, at `(p, q)`,
  `∑ k, x (p, k) · W (q, k)` plus the bias row at `q`. Entry `(0, q)` of the reshaped row is entry `q` of the bias
  vector, and narrowing the weight to bf16 changes nothing over the extended reals.
-/
import proofs.«161219_j70763881169036_1_alg».proof.Proof.KernelRun
import proofs.«161219_j70763881169036_1_alg».proof.Proof.WeightRegion
import proofs.«161219_j70763881169036_1_alg».proof.Proof.ProductRegion
import proofs.«161219_j70763881169036_1_alg».proof.Proof.Spec
import Idealize.ShloMosaic.Lib.StableHlo.Run
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The sampled bias as the host stretch computes it. -/
def hostBias (bm bv eb : FVec Ideal S2048 .f32) : FVec Ideal S2048 .f32 :=
  addf bm (mulf (Host.exp (mulf (broadcastInDim S2048 ![] bcast_S_S2048 (constant (F := Ideal) S_ .f32 0x3F000000#32)) bv)) eb)

/-! ## What the second call finds -/

/-- `x` is as launched: no host operation and no window of the first call writes it. -/
theorem x_entry (c : Dev nD) : xArr (V2 m ρ) c = m ((c : Thread nD τ).loc main_arg0) := by
  show W2 m ρ c (Proc.devRef .tc main_arg0) = _
  rw [W2_of_ne m ρ c main_arg0 (by decide)]
  show StableHlo.after hostOps0 (W0 m ρ c) (Proc.devRef .tc main_arg0) = _
  after_results

/-- The bias row is the host stretch's: the sampled bias reshaped to one row. -/
theorem b_entry (c : Dev nD) : bArr (V2 m ρ) c = fun i => shapeCast S1x2048 (hostBias (m ((c : Thread nD τ).loc main_arg3))
    (m ((c : Thread nD τ).loc main_arg4)) (m ((c : Thread nD τ).loc main_arg6))) shapeCasts_S2048_S1x2048 i := by
  show W2 m ρ c (Proc.devRef .tc main_v5) = _
  rw [W2_of_ne m ρ c main_v5 (by decide)]
  show StableHlo.after hostOps0 (W0 m ρ c) (Proc.devRef .tc main_v5) = _
  after_results
  rfl

/-- The weight is what the first call left: the sampled weight of the three arguments as launched. -/
theorem w_entry (c : Dev nD) : wArr (V2 m ρ) c = sampleW (m ((c : Thread nD τ).loc main_arg1)) (m ((c : Thread nD τ).loc main_arg2))
    (m ((c : Thread nD τ).loc main_arg5)) := by
  show W2 m ρ c (Proc.devRef .tc main_v6) = _
  have h1 : V1 m ρ c main_arg1 = m ((c : Thread nD τ).loc main_arg1) := by
    show StableHlo.after hostOps0 (W0 m ρ c) (Proc.devRef .tc main_arg1) = _; after_results
  have h2 : V1 m ρ c main_arg2 = m ((c : Thread nD τ).loc main_arg2) := by
    show StableHlo.after hostOps0 (W0 m ρ c) (Proc.devRef .tc main_arg2) = _; after_results
  have h5 : V1 m ρ c main_arg5 = m ((c : Thread nD τ).loc main_arg5) := by
    show StableHlo.after hostOps0 (W0 m ρ c) (Proc.devRef .tc main_arg5) = _; after_results
  refine (W2_arr m ρ c 3).trans ?_
  rw [weight_final (V1 m ρ) c, h1, h2, h5]

/-! ## The result buffer -/

/-- `x` as launched, at its literal type. -/
abbrev xLaunched (c : Dev nD) : Cert.Spec.Sx.Idx → EReal := m ((c : Thread nD τ).loc main_arg0)

/-- The result buffer at the last boundary is the specification's function of the seven arguments as launched. -/
theorem result_value (c : Dev nD) :
    W3 m ρ c (Proc.devRef .tc main_v7)
      = Cert.Spec.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (W3_arr m ρ c 3).trans ?_
  rw [product_final (V2 m ρ) c, x_entry, w_entry, b_entry]
  funext i
  show (∑ k : Fin 2048, xLaunched m c (Cert.Spec.xIdx i k)
          * sampleW (m ((c : Thread nD τ).loc main_arg1)) (m ((c : Thread nD τ).loc main_arg2)) (m ((c : Thread nD τ).loc main_arg5)) (Cert.Spec.wIdx i k))
        + shapeCast S1x2048 (hostBias (m ((c : Thread nD τ).loc main_arg3)) (m ((c : Thread nD τ).loc main_arg4)) (m ((c : Thread nD τ).loc main_arg6)))
            shapeCasts_S2048_S1x2048 (rowIdx i)
      = _
  -- entry (0, q) of the one-row reshape is entry q of the bias vector
  rw [shapeCast_apply (hostBias (m ((c : Thread nD τ).loc main_arg3)) (m ((c : Thread nD τ).loc main_arg4)) (m ((c : Thread nD τ).loc main_arg6)))
    shapeCasts_S2048_S1x2048 (rowIdx i) (Cert.Spec.bIdx i) (by
      rw [Shape.rowMajor_val_one, Shape.rowMajor_val_two]
      show (i 1).val = 0 * 2048 + (i 1).val
      omega)]
  rfl

/-- The kernel's program, run: the result buffer ends at the specification's function of the arguments, the arguments
    as launched. -/
theorem run : θ_run defs (onTc (τ := τ) (main (F := Ideal))) ⟨m, fun _ => 0, ρ⟩ (fun r => ∀ c : Dev nD,
      r.2.mem ((c.tc : Thread nD τ).loc main_v7)
        = Cert.Spec.result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (result_value m ρ c), (h c).2⟩)
    (Cert.KernelIdeal.GenRun.run_named (F := Ideal) m ρ)

end Cert.KernelIdeal.Hand

end
-- ==== Proof.RefValue.lean ====
/-
  The reference, index by index.

  The reference samples the weight and the bias on the host, transposes the weight, contracts `x`'s second axis with the
  transposed weight's first, and adds the bias broadcast along the rows. Read at a result index `(p, q)`, through the
  transpose, the contraction pairs `x (p, k)` with the weight's entry `(q, k)`, and the two broadcasts read the bias at `q`:
  the specification's function.
-/
import proofs.«161219_j70763881169036_1_alg».proof.Proof.Gen.ReferenceIdeal.Run
import proofs.«161219_j70763881169036_1_alg».proof.Proof.Gen.ReferenceIdeal.Read
import proofs.«161219_j70763881169036_1_alg».proof.Proof.Spec

noncomputable section

namespace Cert.ReferenceIdeal.Hand

open Cert.ReferenceIdeal Cert.ReferenceIdeal.Read Idealize.ShloMosaic Idealize.ShloMosaic.TcCoe

/-- The reference's last stage is the specification's function of the seven arguments. -/
theorem reference_eq (x0 : (⟨S8192x2048, .f32⟩ : BufTy).Contents (Elt Ideal)) (x1 x2 : (⟨S2048x2048, .f32⟩ : BufTy).Contents (Elt Ideal))
    (x3 x4 : (⟨S2048, .f32⟩ : BufTy).Contents (Elt Ideal)) (x5 : (⟨S2048x2048, .f32⟩ : BufTy).Contents (Elt Ideal))
    (x6 : (⟨S2048, .f32⟩ : BufTy).Contents (Elt Ideal)) :
    val_main_v14 (F := Ideal) x0 x1 x2 x3 x4 x5 x6 = Cert.Spec.result x0 x1 x2 x3 x4 x5 x6 := by
  funext i
  -- the contraction's left index is `(p, k)`; its right index, read back through the transpose, is `(q, k)`
  have hx : ∀ k, lidx_main_v11 i k = Cert.Spec.xIdx i k := fun k => funext fun a => by
    match a with | ⟨0, _⟩ => rfl | ⟨1, _⟩ => rfl
  have hw : ∀ k, idx_main_v10 (ridx_main_v11 i k) = Cert.Spec.wIdx i k := fun k => funext fun a => by
    match a with | ⟨0, _⟩ => rfl | ⟨1, _⟩ => rfl
  -- the two broadcasts read the bias at the column
  have hb : idx_main_v12 (idx_main_v13 i) = Cert.Spec.bIdx i := funext fun a => by
    match a with | ⟨0, _⟩ => rfl
  rw [val_main_v14_apply, val_main_v11_apply, val_main_v13_apply, val_main_v12_apply, val_main_v9_apply,
    val_main_v8_apply, val_main_v7_apply, val_main_v6_apply, val_main_v5_apply, val_main_cst_0_apply, hb]
  simp only [val_main_v10_apply, val_main_v4_apply, val_main_v3_apply, val_main_v2_apply, val_main_v1_apply,
    val_main_v0_apply, val_main_cst_apply, hx, hw]
  rfl

end Cert.ReferenceIdeal.Hand

end
-- ==== Proof.lean ====
/-
  A reparameterised linear layer: `out = x · Wᵀ + β` with the weight and the bias SAMPLED,
  `W = W_m + exp (1/2 · W_v) · ε_W` and `β = b_m + exp (1/2 · b_v) · ε_b`.

  The kernel's program samples the bias on the host, samples the weight in a first pallas_call (eight blocks of 256
  rows, narrowed to bf16) and, in a second one, multiplies sixteen blocks of 512 rows of `x` (narrowed to bf16) with the
  whole weight, contracting the second axis of both, into an f32 zero accumulator, adding the bias row. The reference
  samples both on the host, transposes the weight and takes one `dot_general` plus the broadcast bias.

  Over the extended reals the two narrowings are identities, a product accumulated into zero is the plain sum, and
  contracting `x`'s second axis with the weight's second axis is contracting it with the transposed weight's first.
  So both results are, at `(p, q)`, `(∑ k, x (p, k) · W (q, k)) + β q`, with `W` and `β` built by the same operations in
  the same order from the same word for `1/2`: no law of arithmetic is needed, and the precondition is never opened.

  The three frames are the generated ones (the reference's is its run with the result dropped); the ideal pass rewrote
  nothing, so the idealization conjunct is `True`.
-/
import proofs.«161219_j70763881169036_1_alg».proof.Defs
import proofs.«161219_j70763881169036_1_alg».proof.Proof.Gen.Kernel
import proofs.«161219_j70763881169036_1_alg».proof.Proof.Gen.Kernel.Frame
import proofs.«161219_j70763881169036_1_alg».proof.Proof.Gen.KernelIdeal
import proofs.«161219_j70763881169036_1_alg».proof.Proof.Gen.KernelIdeal.Frame
import proofs.«161219_j70763881169036_1_alg».proof.Proof.Gen.ReferenceIdeal
import proofs.«161219_j70763881169036_1_alg».proof.Proof.Gen.ReferenceIdeal.Run
import proofs.«161219_j70763881169036_1_alg».proof.Proof.Gen.ReferenceIdeal.Read
import proofs.«161219_j70763881169036_1_alg».proof.Proof.Gen.Pre_finite_inputs
import proofs.«161219_j70763881169036_1_alg».proof.Proof.KernelValue
import proofs.«161219_j70763881169036_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the specification's function of the arguments in their result buffers; the arguments agree. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v14_eq, Cert.ReferenceIdeal.Hand.reference_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
